-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x4 : Shape := ⟨2, ![10000, 4]⟩
abbrev S2x320000 : Shape := ⟨2, ![2, 320000]⟩
abbrev S10000 : Shape := ⟨1, ![10000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x4 : S_.BroadcastsInDim S10000x4 (![] : Fin 0 → Fin S10000x4.rank)
  reducesTo_S10000x4_S_d0_1 : S10000x4.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512x256 .f32) (main_arg7 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x4 .f32) (main_arg2 : IVec S2x320000 32) (main_arg3 : IVec S10000 32) (main_arg4 : FVec F S512x512 .f32) (main_arg5 : FVec F S512 .f32) (main_arg6 : FVec F S512x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x4 .f32 := Host.absf main_arg1
  let main_cst_0 : FVec F S_ .f32 := constant S_ .f32 0x7F800000#32
  let main_v5 : FVec F S10000x4 .f32 := broadcastInDim S10000x4 ![] bcast_S_S10000x4 main_cst_0
  let main_v6 : IVec S10000x4 1 := cmpf .olt main_v4 main_v5
  let main_c_1 : IVec S_ 1 := constantI S_ 1 1#1
  let main_v7 : IVec S_ 1 := (fun x v => Host.reduce IntOp.andi x v reducesTo_S10000x4_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S10000x256 : Shape := ⟨2, ![10000, 256]⟩
abbrev S10000x4 : Shape := ⟨2, ![10000, 4]⟩
abbrev S2x320000 : Shape := ⟨2, ![2, 320000]⟩
abbrev S10000 : Shape := ⟨1, ![10000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S2000x512 : Shape := ⟨2, ![2000, 512]⟩
abbrev S2000x256 : Shape := ⟨2, ![2000, 256]⟩
abbrev S10000x1 : Shape := ⟨2, ![10000, 1]⟩
abbrev S16x256 : Shape := ⟨2, ![16, 256]⟩

abbrev nBuf : Space → Nat
  | .hbm => 49
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S10000x4, .f32⟩
  | .hbm, ⟨2, _⟩ => ⟨S2x320000, .i32⟩
  | .hbm, ⟨3, _⟩ => ⟨S10000, .i32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x256, .f32⟩
  | .hbm, ⟨31, _⟩ => ⟨S320000x512, .f32⟩
  | .hbm, ⟨32, _⟩ => ⟨S320000x512, .bf16⟩
  | .hbm, ⟨33, _⟩ => ⟨S512x512, .bf16⟩
  | .hbm, ⟨34, _⟩ => ⟨S512x256, .bf16⟩
  | .hbm, ⟨35, _⟩ => ⟨S1x512, .f32⟩
  | .hbm, ⟨36, _⟩ => ⟨S1x256, .f32⟩
  | .hbm, ⟨37, _⟩ => ⟨S320000x256, .f32⟩
  | .hbm, ⟨38, _⟩ => ⟨S_, .f32⟩
  | .hbm, ⟨39, _⟩ => ⟨S10000x256, .f32⟩
  | .hbm, ⟨40, _⟩ => ⟨S320000x1, .i32⟩
  | .hbm, ⟨41, _⟩ => ⟨S10000x256, .f32⟩
  | .hbm, ⟨42, _⟩ => ⟨S10000x1, .f32⟩
  | .hbm, ⟨43, _⟩ => ⟨S10000x256, .f32⟩
  | .hbm, ⟨44, _⟩ => ⟨S10000x256, .f32⟩
  | .hbm, ⟨45, _⟩ => ⟨S_, .f32⟩
  | .hbm, ⟨46, _⟩ => ⟨S16x256, .f32⟩
  | .hbm, ⟨47, _⟩ => ⟨S10000x1, .i32⟩
  | .hbm, ⟨48, _⟩ => ⟨S16x256, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bitsLt_bf16_f32 : FTy.bits .bf16 < FTy.bits .f32
  shapeCasts_S512_S1x512 : S512.ShapeCasts S1x512
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S10000x256 : S_.BroadcastsInDim S10000x256 (![] : Fin 0 → Fin S10000x256.rank)
  slices_S10000x4_S10000x1_0_0 : S10000x4.Slices ![0, 0] S10000x1
  bcast_S10000x1_S10000x256_0_1 : S10000x1.BroadcastsInDim S10000x256 (![0, 1] : Fin 2 → Fin S10000x256.rank)
  bcast_S_S16x256 : S_.BroadcastsInDim S16x256 (![] : Fin 0 → Fin S16x256.rank)
  bcast_S10000_S10000x1_0 : S10000.BroadcastsInDim S10000x1 (![0] : Fin 1 → Fin S10000x1.rank)
  gather_S10000x256_S320000x1_S320000x256_1_0_n_n_0_1_1256_wf : GatherDims.WF S10000x256 S320000x1 S320000x256 [1] [0] [] [0] [] 1 ![1, 256]
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  scatter_S10000x256_S320000x1_S320000x256_1_0_0_1_wf : ScatterDims.WF S10000x256 S320000x1 S320000x256 [1] [0] [0] 1
  scatter_S16x256_S10000x1_S10000x256_1_0_0_1_wf : ScatterDims.WF S16x256 S10000x1 S10000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S320000x512.size a
  hwx0_0 : ∀ i : grid0.Coords, EltTy.bits .bf16 = 32 ∨ (Rect.block (s := S320000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S320000x256.size a
  hwx0_5 : ∀ i : grid0.Coords, EltTy.bits .f32 = 32 ∨ (Rect.block (s := S320000x256) S2000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S16x256_S10000x1_S10000x256_1_0_0_1 : ScatterDims S16x256 S10000x1 S10000x256 where
  updateWindowDims := [1]
  insertedWindowDims := [0]
  scatterDimsToOperandDims := [0]
  indexVectorDim := 1
  wf := scatter_S16x256_S10000x1_S10000x256_1_0_0_1_wf

abbrev win0_0 : Pipeline.Window sig grid0 :=
  Pipeline.Window.ofSpec (Memref.whole main_v20) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x4 : Shape := ⟨2, ![10000, 4]⟩
abbrev S2x320000 : Shape := ⟨2, ![2, 320000]⟩
abbrev S10000 : Shape := ⟨1, ![10000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S10000x1 : Shape := ⟨2, ![10000, 1]⟩
abbrev S16x256 : Shape := ⟨2, ![16, 256]⟩

abbrev nBuf : Space → Nat
  | .hbm => 54
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x4, .f32⟩
  | .hbm, ⟨2, _⟩ => ⟨S2x320000, .i32⟩
  | .hbm, ⟨3, _⟩ => ⟨S10000, .i32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x256, .f32⟩
  | .hbm, ⟨31, _⟩ => ⟨S320000x512, .f32⟩
  | .hbm, ⟨32, _⟩ => ⟨S320000x512, .f32⟩
  | .hbm, ⟨33, _⟩ => ⟨S1x512, .f32⟩
  | .hbm, ⟨34, _⟩ => ⟨S320000x512, .f32⟩
  | .hbm, ⟨35, _⟩ => ⟨S320000x512, .f32⟩
  | .hbm, ⟨36, _⟩ => ⟨S_, .f32⟩
  | .hbm, ⟨37, _⟩ => ⟨S320000x512, .f32⟩
  | .hbm, ⟨38, _⟩ => ⟨S320000x512, .f32⟩
  | .hbm, ⟨39, _⟩ => ⟨S320000x256, .f32⟩
  | .hbm, ⟨40, _⟩ => ⟨S1x256, .f32⟩
  | .hbm, ⟨41, _⟩ => ⟨S320000x256, .f32⟩
  | .hbm, ⟨42, _⟩ => ⟨S320000x256, .f32⟩
  | .hbm, ⟨43, _⟩ => ⟨S_, .f32⟩
  | .hbm, ⟨44, _⟩ => ⟨S10000x256, .f32⟩
  | .hbm, ⟨45, _⟩ => ⟨S320000x1, .i32⟩
  | .hbm, ⟨46, _⟩ => ⟨S10000x256, .f32⟩
  | .hbm, ⟨47, _⟩ => ⟨S10000x1, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S16x256, .f32⟩
  | .hbm, ⟨52, _⟩ => ⟨S10000x1, .i32⟩
  | .hbm, ⟨53, _⟩ => ⟨S16x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S10000x256 : S_.BroadcastsInDim S10000x256 (![] : Fin 0 → Fin S10000x256.rank)
  slices_S10000x4_S10000x1_0_0 : S10000x4.Slices ![0, 0] S10000x1
  bcast_S10000x1_S10000x256_0_1 : S10000x1.BroadcastsInDim S10000x256 (![0, 1] : Fin 2 → Fin S10000x256.rank)
  bcast_S_S16x256 : S_.BroadcastsInDim S16x256 (![] : Fin 0 → Fin S16x256.rank)
  bcast_S10000_S10000x1_0 : S10000.BroadcastsInDim S10000x1 (![0] : Fin 1 → Fin S10000x1.rank)
  gather_S10000x256_S320000x1_S320000x256_1_0_n_n_0_1_1256_wf : GatherDims.WF S10000x256 S320000x1 S320000x256 [1] [0] [] [0] [] 1 ![1, 256]
  dot_S320000x512_S512x512_S320000x512_1_0_0_1_n_n_wf : DotDims.WF S320000x512 S512x512 S320000x512 [1] [0] [0] [1] [] []
  dot_S320000x512_S512x256_S320000x256_1_0_0_1_n_n_wf : DotDims.WF S320000x512 S512x256 S320000x256 [1] [0] [0] [1] [] []
  scatter_S10000x256_S320000x1_S320000x256_1_0_0_1_wf : ScatterDims.WF S10000x256 S320000x1 S320000x256 [1] [0] [0] 1
  scatter_S16x256_S10000x1_S10000x256_1_0_0_1_wf : ScatterDims.WF S16x256 S10000x1 S10000x256 [1] [0] [0] 1

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S16x256_S10000x1_S10000x256_1_0_0_1 : ScatterDims S16x256 S10000x1 S10000x256 where
  updateWindowDims := [1]
  insertedWindowDims := [0]
  scatterDimsToOperandDims := [0]
  indexVectorDim := 1
  wf := scatter_S16x256_S10000x1_S10000x256_1_0_0_1_wf

class Facts : Prop extends Facts₀ where

variable [Facts]
-- ==== Proof.EdgeMlpSpec.lean ====
/-
  The edge network of one message-passing layer, as mathematics over the extended reals.

  An edge carries a feature row `a` of 512 entries (the target node's 256 features followed by the difference of
  the source's and the target's). The network is two affine layers with a rectifier between them:
    hidden k  = max (∑ k', a k' · W1 k' k + b1 k) 0          (512 hidden units)
    message o = ∑ k, hidden k · W2 k o + b2 o                 (256 outputs)
  Addition and multiplication of extended reals are commutative monoids, so the sums below are order-free; nothing
  here needs the entries to be finite. `msgArr` lays the messages of all 320000 edges out as one [320000, 256] array
  whose row `e` is the network applied to row `e` of the [320000, 512] feature array: the network acts on each edge
  by itself, which is why computing it 2000 edges at a time gives the same array.
-/
import Idealize.ShloMosaic.PureOps.Ideal.Laws
import Idealize.ShloMosaic.Lib.ValueIdx

noncomputable section

open scoped BigOperators
open Idealize.ShloMosaic Idealize.ShloMosaic.ValueIdx

namespace Cert.EdgeMlp

/-- The rectified first layer of one edge: hidden unit `k` of feature row `a`. -/
def rowHidden (a : Fin 512 → EReal) (W1 : Fin 512 → Fin 512 → EReal) (b1 : Fin 512 → EReal) (k : Fin 512) : EReal :=
  max ((∑ k' : Fin 512, a k' * W1 k' k) + b1 k) 0

/-- The message of one edge: output `o` of the second layer over the rectified first. -/
def rowMsg (a : Fin 512 → EReal) (W1 : Fin 512 → Fin 512 → EReal) (b1 : Fin 512 → EReal)
    (W2 : Fin 512 → Fin 256 → EReal) (b2 : Fin 256 → EReal) (o : Fin 256) : EReal :=
  (∑ k : Fin 512, rowHidden a W1 b1 k * W2 k o) + b2 o

/-- The message of edge `e`, output `o`, from the whole feature array and the weight matrices as arrays. -/
def msgAt (A : (⟨2, ![320000, 512]⟩ : Shape).Idx → EReal) (W1 : (⟨2, ![512, 512]⟩ : Shape).Idx → EReal) (b1 : Fin 512 → EReal)
    (W2 : (⟨2, ![512, 256]⟩ : Shape).Idx → EReal) (b2 : Fin 256 → EReal) (e : Fin 320000) (o : Fin 256) : EReal :=
  rowMsg (fun k => A (ix2 e k)) (fun k' k => W1 (ix2 k' k)) b1 (fun k o' => W2 (ix2 k o')) b2 o

/-- All messages as one [320000, 256] array. -/
def msgArr (A : (⟨2, ![320000, 512]⟩ : Shape).Idx → EReal) (W1 : (⟨2, ![512, 512]⟩ : Shape).Idx → EReal) (b1 : Fin 512 → EReal)
    (W2 : (⟨2, ![512, 256]⟩ : Shape).Idx → EReal) (b2 : Fin 256 → EReal) : (⟨2, ![320000, 256]⟩ : Shape).Idx → EReal :=
  fun i => msgAt A W1 b1 W2 b2 (i 0) (i 1)

theorem msgArr_ix2 (A : (⟨2, ![320000, 512]⟩ : Shape).Idx → EReal) (W1 : (⟨2, ![512, 512]⟩ : Shape).Idx → EReal) (b1 : Fin 512 → EReal)
    (W2 : (⟨2, ![512, 256]⟩ : Shape).Idx → EReal) (b2 : Fin 256 → EReal) (e : Fin 320000) (o : Fin 256) :
    msgArr A W1 b1 W2 b2 (ix2 e o) = msgAt A W1 b1 W2 b2 e o := rfl

end Cert.EdgeMlp

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelPayload.lean ====
/-
  What the kernel body stores, read at one entry.

  The body loads a block of 2000 feature rows, both weight matrices and both bias rows, and stores one [2000, 256]
  value: the second matrix product (into zero) of the rectified, bias-shifted first product (into zero), plus the
  second bias row. A matrix product into zero at an entry is the sum over the contracted index of the factors'
  products; the bias rows are one row broadcast over the 2000; narrowing to the 16-bit format changes no value; the
  rectifier is the maximum with zero. So entry (r, o) of the stored value is the edge network (`EdgeMlp.rowMsg`) of
  row `r` of the feature block.
-/
import proofs.«108177_j76441827934549_1_alg».proof.Proof.Gen.KernelIdeal.Skeleton
import proofs.«108177_j76441827934549_1_alg».proof.Proof.EdgeMlpSpec
import proofs.«108177_j76441827934549_1_alg».proof.Proof.LibPlainMatmul
import Idealize.ShloMosaic.Lib.Pipeline.Value
import Idealize.ShloMosaic.Lib.ValueLayout

noncomputable section

open scoped BigOperators
open Idealize.ShloMosaic Idealize.ShloMosaic.ValueIdx

namespace Cert.KernelIdeal.EdgeValue

open Cert.KernelIdeal Cert.KernelIdeal.Gen Cert.EdgeMlp

/-! ## The two products' index maps: rows of the left factor, columns of the right, one contracted axis -/

theorem first_lhs_row (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem first_lhs_contr (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem first_rhs_contr (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem first_rhs_col (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

theorem second_lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem second_lhs_contr (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem second_rhs_contr (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem second_rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-! ## The first layer at an entry -/

/-- The rectified first layer of the block, at row `r` and hidden unit `k`. -/
theorem hidden_apply (x0 : FVec Ideal S2000x512 .bf16) (x1 : FVec Ideal S512x512 .bf16) (x2 : FVec Ideal S1x512 .f32)
    (r : Fin 2000) (k : Fin 512) :
    maximumf (addf (matmul dot_S2000x512_S512x512_S2000x512_1_0_0_1_n_n none x0 x1 (constant (F := Ideal) S2000x512 .f32 0x00000000#32))
        (broadcastTo S2000x512 x2 broadcasts_S1x512_S2000x512))
      (broadcast S2000x512 (Scalar.ofBits (F := Ideal) .f32 0x00000000#32)) (ix2 r k)
      = rowHidden (fun k' => x0 (ix2 r k')) (fun k' k'' => x1 (ix2 k' k'')) (fun k' => x2 (ix2 (0 : Fin 1) k')) k := by
  rw [maximumf_apply, addf_apply, broadcast_apply, broadcastTo_1b_ab_apply]
  simp only [matmul]
  rw [Cert.LibPlainMatmul.matmul_zero_apply dot_S2000x512_S512x512_S2000x512_1_0_0_1_n_n none rfl rfl
    first_lhs_row first_lhs_contr first_rhs_contr first_rhs_col x0 x1 r k]
  unfold rowHidden
  congr 1
  exact Ideal.ofBits_zero_f32

/-! ## The stored value at an entry -/

/-- Entry (r, o) of the value the body stores is the edge network of row `r` of the feature block. -/
theorem stored_apply (x0 : Vec Ideal S2000x512 .bf16) (x1 : Vec Ideal S512x512 .bf16) (x2 : Vec Ideal S1x512 .f32)
    (x3 : Vec Ideal S512x256 .bf16) (x4 : Vec Ideal S1x256 .f32) (r : Fin 2000) (o : Fin 256) :
    k0_pay1 x0 x1 x2 x3 x4 (ix2 r o)
      = rowMsg (fun k' => x0 (ix2 r k')) (fun k' k => x1 (ix2 k' k)) (fun k => x2 (ix2 (0 : Fin 1) k))
          (fun k o' => x3 (ix2 k o')) (fun o' => x4 (ix2 (0 : Fin 1) o')) o := by
  unfold k0_pay1
  simp only [shapeCast_self]
  rw [addf_apply, broadcastTo_1b_ab_apply]
  simp only [matmul]
  rw [Cert.LibPlainMatmul.matmul_zero_apply dot_S2000x512_S512x256_S2000x256_1_0_0_1_n_n none rfl rfl
    second_lhs_row second_lhs_contr second_rhs_contr second_rhs_col _ x3 r o]
  unfold rowMsg
  congr 1
  refine Finset.sum_congr rfl fun k _ => ?_
  rw [truncf_apply]
  exact congrArg (· * x3 (ix2 k o)) (hidden_apply x0 x1 x2 r k)

end Cert.KernelIdeal.EdgeValue

end
-- ==== Proof.KernelValue.lean ====
/-
  What the kernel's program computes, as one function of its arguments.

  Around its one region the program is host operations. BEFORE the region they build the [320000, 512] edge features
  (rows of the node features gathered at the targets, then source rows minus target rows, joined along the columns)
  and re-lay the weights and biases (`edgeFeat`; narrowing to 16 bits and adding a unit axis change no value). AFTER
  it they sum the messages into their target nodes, weight each node's sum by the node's first coordinate, and sum the
  nodes into graphs (`pooled`).

  The region runs the body at 160 grid points. Point `t` reads feature rows 2000·t … 2000·t + 1999 and the whole of
  the four small arrays, and writes result rows 2000·t … 2000·t + 1999. Entry (r, o) of what it writes is the edge
  network of feature row 2000·t + r (`stored_apply`), which is entry (2000·t + r, o) of `EdgeMlp.msgArr`: the network
  acts on each row by itself. The 160 row blocks tile the 320000 rows (row `e` is in block `e / 2000`), so the result
  array ends holding `msgArr` everywhere, and the program's result is `pooled` of it.
-/
import proofs.«108177_j76441827934549_1_alg».proof.Proof.Gen.KernelIdeal.Frame
import proofs.«108177_j76441827934549_1_alg».proof.Proof.KernelPayload
import Idealize.ShloMosaic.Lib.Pipeline.Value
import Idealize.ShloMosaic.Lib.StableHlo.Run
import Idealize.ShloMosaic.Lib.ValueLayout

set_option maxRecDepth 16384

noncomputable section

open scoped BigOperators
open Idealize.ShloMosaic Idealize.ShloMosaic.TcCoe Idealize.ShloMosaic.ValueIdx Idealize.SL.Sem Idealize.ShloMosaic.StableHlo
open Idealize.ShloMosaic.Pipeline (Dat)

namespace Cert.KernelIdeal.EdgeValue

open Cert.KernelIdeal Cert.KernelIdeal.Gen Cert.EdgeMlp

/-! ## The host operations around the region, as functions of the arguments -/

/-- An endpoint list with its negative entries shifted up once by the number of nodes. -/
def wrapped (v : IVec S320000 32) : IVec S320000 32 :=
  select (cmpi .slt v (broadcastInDim S320000 ![] bcast_S_S320000 (constantI S_ 32 0#32)))
    (addi v (broadcastInDim S320000 ![] bcast_S_S320000 (constantI S_ 32 10000#32))) v

/-- The node-feature rows at an endpoint list. -/
def rowsAt (x0 : FVec Ideal S10000x256 .f32) (v : IVec S320000 32) : FVec Ideal S320000x256 .f32 :=
  Host.gather gather_S10000x256_S320000x1_S320000x256_1_0_n_n_0_1_1256 x0 (broadcastInDim S320000x1 ![0] bcast_S320000_S320000x1_0 (wrapped v))

/-- The edges' targets (row 1 of the edge list) and sources (row 0). -/
def targets (x2 : IVec S2x320000 32) : IVec S320000 32 :=
  shapeCast _ (extractStridedSlice S1x320000 ![1, 0] x2 slices_S2x320000_S1x320000_1_0) shapeCasts_S1x320000_S320000
def sources (x2 : IVec S2x320000 32) : IVec S320000 32 :=
  shapeCast _ (extractStridedSlice S1x320000 ![0, 0] x2 slices_S2x320000_S1x320000_0_0) shapeCasts_S1x320000_S320000

/-- The feature array of all edges: the target's features, then source minus target. -/
def edgeFeat (x0 : FVec Ideal S10000x256 .f32) (x2 : IVec S2x320000 32) : FVec Ideal S320000x512 .f32 :=
  concatenate S320000x512 1 [⟨S320000x256, rowsAt x0 (targets x2)⟩,
      ⟨S320000x256, (subf (rowsAt x0 (sources x2)) (rowsAt x0 (targets x2)) : FVec Ideal S320000x256 .f32)⟩]
    concatenates_S320000x256_S320000x256_S320000x512_d1

/-- Messages summed into their target nodes, weighted by the node's first coordinate, summed into graphs. -/
def pooled (x1 : FVec Ideal S10000x4 .f32) (x2 : IVec S2x320000 32) (x3 : IVec S10000 32) (msgs : FVec Ideal S320000x256 .f32) :
    FVec Ideal S16x256 .f32 :=
  Host.scatterAdd scatter_S16x256_S10000x1_S10000x256_1_0_0_1 (broadcastInDim S16x256 ![] bcast_S_S16x256 (constant (F := Ideal) S_ .f32 0x00000000#32))
    (broadcastInDim S10000x1 ![0] bcast_S10000_S10000x1_0 x3)
    (mulf (broadcastInDim S10000x256 ![0, 1] bcast_S10000x1_S10000x256_0_1 (extractStridedSlice S10000x1 ![0, 0] x1 slices_S10000x4_S10000x1_0_0))
      (Host.scatterAdd scatter_S10000x256_S320000x1_S320000x256_1_0_0_1 (broadcastInDim S10000x256 ![] bcast_S_S10000x256 (constant (F := Ideal) S_ .f32 0x00000000#32))
        (broadcastInDim S320000x1 ![0] bcast_S320000_S320000x1_0 (targets x2)) msgs))

variable (m : (ℓ : Loc nD τ sig) → Buf (Elt Ideal) ℓ) (ρ : Dev nD → PrngReg)

/-! ## The region's arrays as it finds them -/

abbrev featArr (c : Dev nD) : FVec Ideal S320000x512 .bf16 := V m c main_v20
abbrev w1Arr (c : Dev nD) : FVec Ideal S512x512 .bf16 := V m c main_v21
abbrev b1Arr (c : Dev nD) : FVec Ideal S1x512 .f32 := V m c main_v23
abbrev w2Arr (c : Dev nD) : FVec Ideal S512x256 .bf16 := V m c main_v22
abbrev b2Arr (c : Dev nD) : FVec Ideal S1x256 .f32 := V m c main_v24

set_option maxHeartbeats 4000000 in
theorem feat_entry (c : Dev nD) : featArr m c = truncf (F := Ideal) .bf16 (edgeFeat (m ((c : Thread nD τ).loc main_arg0)) (m ((c : Thread nD τ).loc main_arg2))) bitsLt_bf16_f32 := by
  show StableHlo.after hostOps0 (fun b => m (c, b)) (Proc.devRef .tc main_v20) = _
  after_results
  rfl
theorem w1_entry (c : Dev nD) : w1Arr m c = truncf (F := Ideal) .bf16 (m ((c : Thread nD τ).loc main_arg4) : FVec Ideal S512x512 .f32) bitsLt_bf16_f32 := by
  show StableHlo.after hostOps0 (fun b => m (c, b)) (Proc.devRef .tc main_v21) = _
  after_results
theorem w2_entry (c : Dev nD) : w2Arr m c = truncf (F := Ideal) .bf16 (m ((c : Thread nD τ).loc main_arg6) : FVec Ideal S512x256 .f32) bitsLt_bf16_f32 := by
  show StableHlo.after hostOps0 (fun b => m (c, b)) (Proc.devRef .tc main_v22) = _
  after_results
theorem b1_entry (c : Dev nD) : b1Arr m c = shapeCast _ (m ((c : Thread nD τ).loc main_arg5)) shapeCasts_S512_S1x512 := by
  show StableHlo.after hostOps0 (fun b => m (c, b)) (Proc.devRef .tc main_v23) = _
  after_results
  rfl
theorem b2_entry (c : Dev nD) : b2Arr m c = shapeCast _ (m ((c : Thread nD τ).loc main_arg7)) shapeCasts_S256_S1x256 := by
  show StableHlo.after hostOps0 (fun b => m (c, b)) (Proc.devRef .tc main_v24) = _
  after_results
  rfl
theorem targets_entry (c : Dev nD) : V m c main_v3 = targets (m ((c : Thread nD τ).loc main_arg2)) := by
  show StableHlo.after hostOps0 (fun b => m (c, b)) (Proc.devRef .tc main_v3) = _
  after_results
  rfl

/-! ## The grid -/

theorem zeros : (![0, 0] : Fin 2 → Nat) = fun _ => 0 := funext fun a => by fin_cases a <;> rfl

/-- Point `t` takes block row `t` of the features and of the result; the other four windows are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the body loads -/

/-- Row `r` of the feature block at point `t` is row 2000·t + r of the feature array. -/
theorem featBlk_apply (c : Dev nD) (t : Fin cfg0.N) (r : Fin 2000) (k : Fin 512) (e : Fin 320000) (he : e.val = t.val * 2000 + r.val) :
    (iblk m c 0 t : Vec Ideal S2000x512 .bf16) (ix2 r k) = featArr m c (ix2 e k) := by
  obtain ⟨e0, e1, -⟩ := idx_facts t
  show V m c main_v20 (((cfg0.win 0).blk t).view.emb (ix2 r k)) = V m c main_v20 (ix2 e k)
  refine congrArg _ (funext fun a => Fin.ext ?_)
  match a with
  | ⟨0, _⟩ => show win0_0.index t (0 : Fin 2) * 2000 + 1 * r.val = e.val; omega
  | ⟨1, _⟩ => show win0_0.index t (1 : Fin 2) * 512 + 1 * k.val = k.val; omega

theorem w1Blk_eq (c : Dev nD) (t : Fin cfg0.N) : (iblk m c 1 t : Vec Ideal S512x512 .bf16) = w1Arr m c := by
  obtain ⟨-, -, e2, e3, -⟩ := idx_facts t
  funext y
  show V m c main_v21 (((cfg0.win 1).blk t).view.emb y) = V m c main_v21 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem b1Blk_eq (c : Dev nD) (t : Fin cfg0.N) : (iblk m c 2 t : Vec Ideal S1x512 .f32) = b1Arr m c := by
  obtain ⟨-, -, -, -, e4, e5, -⟩ := idx_facts t
  funext y
  show V m c main_v23 (((cfg0.win 2).blk t).view.emb y) = V m c main_v23 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem w2Blk_eq (c : Dev nD) (t : Fin cfg0.N) : (iblk m c 3 t : Vec Ideal S512x256 .bf16) = w2Arr m c := by
  obtain ⟨-, -, -, -, -, -, e6, e7, -⟩ := idx_facts t
  funext y
  show V m c main_v22 (((cfg0.win 3).blk t).view.emb y) = V m c main_v22 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega

theorem b2Blk_eq (c : Dev nD) (t : Fin cfg0.N) : (iblk m c 4 t : Vec Ideal S1x256 .f32) = b2Arr m c := by
  obtain ⟨-, -, -, -, -, -, -, -, e8, e9, -⟩ := idx_facts t
  funext y
  show V m c main_v24 (((cfg0.win 4).blk t).view.emb y) = V m c main_v24 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## What a point writes back -/

/-- The body's stored value on a feature block that is rows 2000·tv … of `A`, read at `j`, is `msgArr` of `A` at the
    entry `i` with `i 0 = 2000·tv + j 0`, `i 1 = j 1`. -/
theorem stored_entry (x0 : Vec Ideal S2000x512 .bf16) (x1 : Vec Ideal S512x512 .bf16) (x2 : Vec Ideal S1x512 .f32)
    (x3 : Vec Ideal S512x256 .bf16) (x4 : Vec Ideal S1x256 .f32)
    (A : FVec Ideal S320000x512 .bf16) (W1 : FVec Ideal S512x512 .bf16) (B1 : FVec Ideal S1x512 .f32)
    (W2 : FVec Ideal S512x256 .bf16) (B2 : FVec Ideal S1x256 .f32) (tv : ℕ)
    (h0 : ∀ (r : Fin 2000) (k : Fin 512) (e : Fin 320000), e.val = tv * 2000 + r.val → x0 (ix2 r k) = A (ix2 e k))
    (h1 : x1 = W1) (h2 : x2 = B1) (h3 : x3 = W2) (h4 : x4 = B2)
    (j : S2000x256.Idx) (i : S320000x256.Idx) (hi0 : (i 0).val = tv * 2000 + (j 0).val) (hi1 : (i 1).val = (j 1).val) :
    k0_pay1 x0 x1 x2 x3 x4 j
      = msgArr A W1 (fun k => B1 (ix2 (0 : Fin 1) k)) W2 (fun o => B2 (ix2 (0 : Fin 1) o)) i := by
  subst h1 h2 h3 h4
  obtain ⟨r, o, rfl⟩ : ∃ (r : Fin 2000) (o : Fin 256), j = ix2 r o := ⟨j 0, j 1, eq_ix2 j⟩
  obtain ⟨e, o', rfl⟩ : ∃ (e : Fin 320000) (o' : Fin 256), i = ix2 e o' := ⟨i 0, i 1, eq_ix2 i⟩
  have ho : o' = o := Fin.ext hi1
  subst ho
  rw [stored_apply, msgArr_ix2]
  unfold msgAt
  have ha : (fun k' => x0 (ix2 r k')) = fun k' => A (ix2 e k') := funext fun k' => h0 r k' e hi0
  rw [ha]

/-- The messages as the region computes them, from the arrays it finds. -/
def kernelMsgs (c : Dev nD) : FVec Ideal S320000x256 .f32 :=
  msgArr (featArr m c) (w1Arr m c) (fun k => b1Arr m c (ix2 (0 : Fin 1) k)) (w2Arr m c) (fun o => b2Arr m c (ix2 (0 : Fin 1) o))

/-- WHAT POINT `t` WRITES BACK is block `t` of `kernelMsgs`. -/
theorem flushed_eq (c : Dev nD) (t : Fin cfg0.N) :
    (dats m 0 c).flushed 5 t = ((cfg0.win 5).blk t).view.read (Elt Ideal) (kernelMsgs m c) := by
  show (cfg0.win 5).cut (grid0.coords t) ((dats m 0 c).after 5 t) = _
  rw [after0_5]
  unfold out0_5
  rw [View.canon_unit_zero zeros]
  simp only [View.ld_unit_zero (S := S2000x512) zeros, View.ld_unit_zero (S := S512x512) zeros, View.ld_unit_zero (S := S1x512) zeros,
    View.ld_unit_zero (S := S512x256) zeros, View.ld_unit_zero (S := S1x256) zeros]
  obtain ⟨-, -, -, -, -, -, -, -, -, -, e10, e11⟩ := idx_facts t
  funext j
  show k0_pay1 (iblk m c 0 t) (iblk m c 1 t) (iblk m c 2 t) (iblk m c 3 t) (iblk m c 4 t) j = kernelMsgs m c (((cfg0.win 5).blk t).view.emb j)
  refine stored_entry (iblk m c 0 t) (iblk m c 1 t) (iblk m c 2 t) (iblk m c 3 t) (iblk m c 4 t)
    (featArr m c) (w1Arr m c) (b1Arr m c) (w2Arr m c) (b2Arr m c) t.val
    (fun r k e he => featBlk_apply m c t r k e he) (w1Blk_eq m c t) (b1Blk_eq m c t) (w2Blk_eq m c t) (b2Blk_eq m c t)
    j (((cfg0.win 5).blk t).view.emb j) ?_ ?_
  · show win0_5.index t (0 : Fin 2) * 2000 + 1 * (j 0).val = t.val * 2000 + (j 0).val
    rw [e10]; omega
  · show win0_5.index t (1 : Fin 2) * 256 + 1 * (j 1).val = (j 1).val
    rw [e11]; omega

/-! ## The blocks tile the result -/

theorem mem_blk (t : Fin cfg0.N) (i : S320000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- Row `e` of the result is in the block of point `e / 2000`. -/
theorem covered (i : S320000x256.Idx) : ∃ t : Fin cfg0.N, (cfg0.win 5).flush t = true ∧ i ∈ ((cfg0.win 5).blk t).view.set := by
  have h0 : (i 0).val < 320000 := (i 0).isLt
  have h1 : (i 1).val < 256 := (i 1).isLt
  have hN : cfg0.N = 160 := N_0
  have hlt : (i 0).val / 2000 < cfg0.N := by rw [hN]; omega
  obtain ⟨-, -, -, -, -, -, -, -, -, -, e10, e11⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e10]
    show (i 0).val / 2000 * 2000 ≤ (i 0).val ∧ (i 0).val < (i 0).val / 2000 * 2000 + 2000
    omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    rw [e11]
    omega

/-- THE RESULT ARRAY of the region after the run. -/
theorem final (c : Dev nD) : (dats m 0 c).arrAt 5 cfg0.N = kernelMsgs m c :=
  (dats m 0 c).arrAt_eq_of_cover 5 (kernelMsgs m c) (fun t _ => flushed_eq m c t) covered

/-! ## The messages from the program's arguments -/

/-- The region's messages are `msgArr` of the edge features and the weights and biases as launched. -/
theorem kernelMsgs_eq (c : Dev nD) :
    kernelMsgs m c = msgArr (edgeFeat (m ((c : Thread nD τ).loc main_arg0)) (m ((c : Thread nD τ).loc main_arg2)))
      (m ((c : Thread nD τ).loc main_arg4)) (fun k => m ((c : Thread nD τ).loc main_arg5) (ix1 k))
      (m ((c : Thread nD τ).loc main_arg6)) (fun o => m ((c : Thread nD τ).loc main_arg7) (ix1 o)) := by
  unfold kernelMsgs
  rw [feat_entry, w1_entry, w2_entry, b1_entry, b2_entry]
  have hb1 : (fun k : Fin 512 => shapeCast S1x512 (m ((c : Thread nD τ).loc main_arg5)) shapeCasts_S512_S1x512 (ix2 (0 : Fin 1) k))
      = fun k => m ((c : Thread nD τ).loc main_arg5) (ix1 k) := funext fun k => shapeCast_a_1a_apply _ _ _ _
  have hb2 : (fun o : Fin 256 => shapeCast S1x256 (m ((c : Thread nD τ).loc main_arg7)) shapeCasts_S256_S1x256 (ix2 (0 : Fin 1) o))
      = fun o => m ((c : Thread nD τ).loc main_arg7) (ix1 o) := funext fun o => shapeCast_a_1a_apply _ _ _ _
  rw [hb1, hb2]
  rfl

/-! ## The lines after the region -/

theorem tail_eq (c : Dev nD) : Pipeline.afterTail₀ cfgs (dats m) 0 (V0 m) [hostOps1] c main_v34
    = pooled (m ((c : Thread nD τ).loc main_arg1)) (m ((c : Thread nD τ).loc main_arg2)) (m ((c : Thread nD τ).loc main_arg3)) ((dats m 0 c).arrAt 5 cfg0.N) := by
  have h25 : Pipeline.withArrays (cfgs 0).spec c (V0 m c) (fun w => (dats m 0 c).arrAt w (cfgs 0).N) (Proc.devRef .tc main_v25)
      = (dats m 0 c).arrAt 5 cfg0.N := Pipeline.withArrays_arr spec0 launch0.win.arr_inj c _ _ 5
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have hv3 : Pipeline.withArrays (cfgs 0).spec c (V0 m c) (fun w => (dats m 0 c).arrAt w (cfgs 0).N) (Proc.devRef .tc main_v3)
      = targets (m ((c : Thread nD τ).loc main_arg2)) :=
    (Pipeline.withArrays_of_ne _ c (V0 m c) _ main_v3 (by exact (by decide : ∀ w, Pipeline.arrRef spec0 w ≠ main_v3))).trans (targets_entry m c)
  unfold Pipeline.afterTail₀
  show StableHlo.after hostOps1 _ (Proc.devRef .tc main_v34) = _
  after_results
  rw [h25, h3, h1, hv3]
  rfl

/-! ## The run, read -/

/-- Every weakly fair execution of the program ends with its result at `pooled` of `msgArr` of the arguments, and
    the arguments unchanged. -/
theorem run : θ_run defs (onTc (τ := τ) (main (F := Ideal))) ⟨m, fun _ => 0, ρ⟩ fun r => ∀ c : Dev nD,
      r.2.mem ((c : Thread nD τ).loc main_v34)
        = pooled (m ((c : Thread nD τ).loc main_arg1)) (m ((c : Thread nD τ).loc main_arg2)) (m ((c : Thread nD τ).loc main_arg3))
            (msgArr (edgeFeat (m ((c : Thread nD τ).loc main_arg0)) (m ((c : Thread nD τ).loc main_arg2)))
              (m ((c : Thread nD τ).loc main_arg4)) (fun k => m ((c : Thread nD τ).loc main_arg5) (ix1 k))
              (m ((c : Thread nD τ).loc main_arg6)) (fun o => m ((c : Thread nD τ).loc main_arg7) (ix1 o)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(((h c).2 main_v34 (Pipeline.mem_restRefs_of main_v34 (by decide) (by decide))).trans (tail_eq m c)).trans
        (by rw [final, kernelMsgs_eq]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.EdgeValue

end
-- ==== Proof.RefMessages.lean ====
/-
  The reference's message array is the edge network of its own feature array.

  The reference computes the messages of all 320000 edges at once: a matrix product of the [320000, 512] feature array
  with the first weight matrix, the first bias broadcast over the rows, the maximum with zero, a second product with
  the second weight matrix, the second bias broadcast. Read at edge `e` and output `o`, each product is the sum over
  its contracted index, each broadcast bias its entry at the column, the constant the real zero: that is
  `EdgeMlp.msgAt` of the feature array, entry by entry.
-/
import proofs.«108177_j76441827934549_1_alg».proof.Proof.Gen.ReferenceIdeal.Read
import proofs.«108177_j76441827934549_1_alg».proof.Proof.EdgeMlpSpec
import Idealize.ShloMosaic.Lib.ValueLayout

noncomputable section

open scoped BigOperators
open Idealize.ShloMosaic Idealize.ShloMosaic.ValueIdx

namespace Cert.ReferenceIdeal.EdgeValue

open Cert.ReferenceIdeal Cert.ReferenceIdeal.Gen Cert.ReferenceIdeal.Read Cert.EdgeMlp

/-- The rectified first layer at edge `e`, hidden unit `k`. -/
theorem hidden_apply (x0 : (⟨S10000x256, .f32⟩ : BufTy).Contents (Elt Ideal)) (x2 : (⟨S2x320000, .i32⟩ : BufTy).Contents (Elt Ideal))
    (x4 : (⟨S512x512, .f32⟩ : BufTy).Contents (Elt Ideal)) (x5 : (⟨S512, .f32⟩ : BufTy).Contents (Elt Ideal))
    (e : Fin 320000) (k : Fin 512) :
    val_main_v24 (F := Ideal) x0 x2 x4 x5 (ix2 e k)
      = rowHidden (fun k' => val_main_v19 (F := Ideal) x0 x2 (ix2 e k')) (fun k' k'' => x4 (ix2 k' k'')) (fun k' => x5 (ix1 k')) k := by
  have el : ∀ k' : Fin 512, lidx_main_v20 (ix2 e k) k' = ix2 e k' := fun k' => funext fun a => Fin.ext (by
    match a with
    | ⟨0, _⟩ => rfl
    | ⟨1, _⟩ => rfl)
  have er : ∀ k' : Fin 512, ridx_main_v20 (ix2 e k) k' = ix2 k' k := fun k' => funext fun a => Fin.ext (by
    match a with
    | ⟨0, _⟩ => rfl
    | ⟨1, _⟩ => rfl)
  have eb : idx_main_v21 (idx_main_v22 (ix2 e k)) = ix1 k := funext fun a => Fin.ext (by
    match a with
    | ⟨0, _⟩ => rfl)
  rw [val_main_v24_apply, val_main_v23_apply, val_main_v20_apply, val_main_v22_apply, val_main_v21_apply,
    val_main_call0_v0_apply, val_main_call0_cst_apply]
  simp only [el, er, eb, Ideal.maximumf_def, Ideal.addf_def, Ideal.ofBits_def, Ideal.ofBits_zero_f32]
  rfl

/-- The reference's message array is `msgArr` of its feature array, the weights and the biases. -/
theorem messages_eq (x0 : (⟨S10000x256, .f32⟩ : BufTy).Contents (Elt Ideal)) (x2 : (⟨S2x320000, .i32⟩ : BufTy).Contents (Elt Ideal))
    (x4 : (⟨S512x512, .f32⟩ : BufTy).Contents (Elt Ideal)) (x5 : (⟨S512, .f32⟩ : BufTy).Contents (Elt Ideal))
    (x6 : (⟨S512x256, .f32⟩ : BufTy).Contents (Elt Ideal)) (x7 : (⟨S256, .f32⟩ : BufTy).Contents (Elt Ideal)) :
    val_main_v28 (F := Ideal) x0 x2 x4 x5 x6 x7
      = msgArr (val_main_v19 (F := Ideal) x0 x2) x4 (fun k => x5 (ix1 k)) x6 (fun o => x7 (ix1 o)) := by
  funext i
  obtain ⟨e, o, rfl⟩ : ∃ (e : Fin 320000) (o : Fin 256), i = ix2 e o := ⟨i 0, i 1, eq_ix2 i⟩
  have el : ∀ k : Fin 512, lidx_main_v25 (ix2 e o) k = ix2 e k := fun k => funext fun a => Fin.ext (by
    match a with
    | ⟨0, _⟩ => rfl
    | ⟨1, _⟩ => rfl)
  have er : ∀ k : Fin 512, ridx_main_v25 (ix2 e o) k = ix2 k o := fun k => funext fun a => Fin.ext (by
    match a with
    | ⟨0, _⟩ => rfl
    | ⟨1, _⟩ => rfl)
  have eb : idx_main_v26 (idx_main_v27 (ix2 e o)) = ix1 o := funext fun a => Fin.ext (by
    match a with
    | ⟨0, _⟩ => rfl)
  rw [msgArr_ix2, val_main_v28_apply, val_main_v25_apply, val_main_v27_apply, val_main_v26_apply]
  simp only [el, er, eb, Ideal.addf_def, hidden_apply]
  rfl

end Cert.ReferenceIdeal.EdgeValue

end
-- ==== Proof.lean ====
/-
  The certificate of the edge-network message-passing layer: the tiled kernel program and the plain reference compute
  the same pooled messages over the extended reals.

  Both programs gather node-feature rows at each edge's endpoints, form the edge features (target, then source minus
  target), apply a two-layer network with a rectifier to every edge, sum the messages into their target nodes, weight
  every node's sum by the node's first coordinate and sum the nodes into graphs. They differ only in the middle: the
  reference applies the network to all 320000 edges by two whole matrix products; the kernel applies it to 2000 edges at
  a time, with the operands passed through a 16-bit format. Over the extended reals a format change is the identity and
  a matrix product at an entry is a sum over the contracted index in either program, so both middles are the array
  `EdgeMlp.msgArr` of the same edge features (`EdgeValue.run` on the kernel's side, `messages_eq` on the reference's),
  and the operations before and after are literally the same functions (`edgeFeat`, `pooled`). No step uses that the
  inputs are finite: only sums are regrouped by rows, never reassociated across a product.
-/
import proofs.«108177_j76441827934549_1_alg».proof.Defs
import proofs.«108177_j76441827934549_1_alg».proof.Proof.Gen.Kernel
import proofs.«108177_j76441827934549_1_alg».proof.Proof.Gen.Kernel.Skeleton
import proofs.«108177_j76441827934549_1_alg».proof.Proof.Gen.Kernel.Launch
import proofs.«108177_j76441827934549_1_alg».proof.Proof.Gen.Kernel.Points
import proofs.«108177_j76441827934549_1_alg».proof.Proof.Gen.Kernel.Frame
import proofs.«108177_j76441827934549_1_alg».proof.Proof.Gen.KernelIdeal
import proofs.«108177_j76441827934549_1_alg».proof.Proof.Gen.KernelIdeal.Skeleton
import proofs.«108177_j76441827934549_1_alg».proof.Proof.Gen.KernelIdeal.Launch
import proofs.«108177_j76441827934549_1_alg».proof.Proof.Gen.KernelIdeal.Points
import proofs.«108177_j76441827934549_1_alg».proof.Proof.Gen.KernelIdeal.Frame
import proofs.«108177_j76441827934549_1_alg».proof.Proof.Gen.ReferenceIdeal
import proofs.«108177_j76441827934549_1_alg».proof.Proof.Gen.ReferenceIdeal.Run
import proofs.«108177_j76441827934549_1_alg».proof.Proof.Gen.ReferenceIdeal.Read
import proofs.«108177_j76441827934549_1_alg».proof.Proof.Gen.Pre_finite_inputs
import proofs.«108177_j76441827934549_1_alg».proof.Proof.KernelValue
import proofs.«108177_j76441827934549_1_alg».proof.Proof.RefMessages
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The reference's result is the pooling of the edge network's messages over the edge features: its operations before
    the network are `edgeFeat`, its network is `msgArr`, its operations after are `pooled`. -/
theorem reference_result (x0 : (⟨Cert.ReferenceIdeal.S10000x256, .f32⟩ : BufTy).Contents (Elt Ideal))
    (x1 : (⟨Cert.ReferenceIdeal.S10000x4, .f32⟩ : BufTy).Contents (Elt Ideal))
    (x2 : (⟨Cert.ReferenceIdeal.S2x320000, .i32⟩ : BufTy).Contents (Elt Ideal))
    (x3 : (⟨Cert.ReferenceIdeal.S10000, .i32⟩ : BufTy).Contents (Elt Ideal))
    (x4 : (⟨Cert.ReferenceIdeal.S512x512, .f32⟩ : BufTy).Contents (Elt Ideal))
    (x5 : (⟨Cert.ReferenceIdeal.S512, .f32⟩ : BufTy).Contents (Elt Ideal))
    (x6 : (⟨Cert.ReferenceIdeal.S512x256, .f32⟩ : BufTy).Contents (Elt Ideal))
    (x7 : (⟨Cert.ReferenceIdeal.S256, .f32⟩ : BufTy).Contents (Elt Ideal)) :
    Cert.ReferenceIdeal.Read.val_main_v37 (F := Ideal) x0 x1 x2 x3 x4 x5 x6 x7
      = Cert.KernelIdeal.EdgeValue.pooled x1 x2 x3
          (Cert.EdgeMlp.msgArr (Cert.KernelIdeal.EdgeValue.edgeFeat x0 x2) x4 (fun k => x5 (ix1 k)) x6 (fun o => x7 (ix1 o))) := by
  have hf : Cert.ReferenceIdeal.Read.val_main_v19 (F := Ideal) x0 x2 = Cert.KernelIdeal.EdgeValue.edgeFeat x0 x2 := rfl
  rw [← hf, ← Cert.ReferenceIdeal.EdgeValue.messages_eq x0 x2 x4 x5 x6 x7]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the pooled messages of the same edge features. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v37_eq, reference_result, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
